-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S40960x7 : Shape := ⟨2, ![40960, 7]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S40960x7 : S_.BroadcastsInDim S40960x7 (![] : Fin 0 → Fin S40960x7.rank)
  reducesTo_S40960x7_S_d0_1 : S40960x7.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x1024 .f32) (main_arg1 : FVec F S40960x7 .f32) (main_arg2 : IVec S40960x7 32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S40960x7 .f32 := Host.absf main_arg1
  let main_cst_0 : FVec F S_ .f32 := constant S_ .f32 0x7F800000#32
  let main_v5 : FVec F S40960x7 .f32 := broadcastInDim S40960x7 ![] bcast_S_S40960x7 main_cst_0
  let main_v6 : IVec S40960x7 1 := cmpf .olt main_v4 main_v5
  let main_c_1 : IVec S_ 1 := constantI S_ 1 1#1
  let main_v7 : IVec S_ 1 := (fun x v => Host.reduce IntOp.andi x v reducesTo_S40960x7_S_d0_1 h_S_) main_v6 main_c_1
  let main_v8 : IVec S_ 1 := andi main_v3 main_v7
  let main_c_2 : IVec S_ 32 := constantI S_ 32 0#32
  let main_v9 : IVec S40960x7 32 := broadcastInDim S40960x7 ![] bcast_S_S40960x7 main_c_2
  let main_v10 : IVec S40960x7 1 := cmpi .sge main_arg2 main_v9
  let main_c_3 : IVec S_ 1 := constantI S_ 1 1#1
  let main_v11 : IVec S_ 1 := (fun x v => Host.reduce IntOp.andi x v reducesTo_S40960x7_S_d0_1 h_S_) main_v10 main_c_3
  let main_v12 : IVec S_ 1 := andi main_v8 main_v11
  let main_c_4 : IVec S_ 32 := constantI S_ 32 1024#32
  let main_v13 : IVec S40960x7 32 := broadcastInDim S40960x7 ![] bcast_S_S40960x7 main_c_4
  let main_v14 : IVec S40960x7 1 := cmpi .slt main_arg2 main_v13
  let main_c_5 : IVec S_ 1 := constantI S_ 1 1#1
  let main_v15 : IVec S_ 1 := (fun x v => Host.reduce IntOp.andi x v reducesTo_S40960x7_S_d0_1 h_S_) main_v14 main_c_5
  fn_part1 (F := F) main_v12 main_v15
-- ==== Kernel.lean ====
abbrev S1024x1024 : Shape := ⟨2, ![1024, 1024]⟩
abbrev S40960x7 : Shape := ⟨2, ![40960, 7]⟩
abbrev S7x40960 : Shape := ⟨2, ![7, 40960]⟩
abbrev S1024x40960 : Shape := ⟨2, ![1024, 40960]⟩
abbrev S7x1024 : Shape := ⟨2, ![7, 1024]⟩
abbrev S1x1024 : Shape := ⟨2, ![1, 1024]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S40960x7, .f32⟩
  | .hbm, ⟨2, _⟩ => ⟨S40960x7, .i32⟩
  | .hbm, ⟨3, _⟩ => ⟨S1024x1024, .bf16⟩
  | .hbm, ⟨4, _⟩ => ⟨S7x40960, .f32⟩
  | .hbm, ⟨5, _⟩ => ⟨S7x40960, .i32⟩
  | .hbm, ⟨6, _⟩ => ⟨S1024x40960, .f32⟩
  | .local _ .vmem, ⟨0, _⟩ => ⟨S1024x1024, .bf16⟩
  | .local _ .vmem, ⟨1, _⟩ => ⟨S7x1024, .f32⟩
  | .local _ .vmem, ⟨2, _⟩ => ⟨S7x1024, .f32⟩
  | .local _ .vmem, ⟨3, _⟩ => ⟨S7x1024, .i32⟩
  | .local _ .vmem, ⟨4, _⟩ => ⟨S7x1024, .i32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S40960x7_S7x40960_1_0 : S40960x7.Transposes [1, 0] S7x40960
  inb_S7x1024_S7x1024_0_0 : ∀ a, (![0, 0] : Fin 2 → Nat) a + S7x1024.size a ≤ S7x1024.size a
  h_S7x1024 : 0 < S7x1024.numel
  shapeCasts_S7x1024_S7x1024 : S7x1024.ShapeCasts S7x1024
  iota_S1024x1024_d0_w32 : S1024x1024.Iotas .tc 32 [0]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S7x1024_o0_0_S1x1024 : S7x1024.Slices ![0, 0] S1x1024
  shapeCasts_S1x1024_S1024 : S1x1024.ShapeCasts S1024
  shapeCasts_S1024_S1x1024 : S1024.ShapeCasts S1x1024
  broadcasts_S1x1024_S1024x1024 : S1x1024.Broadcasts S1024x1024
  shapeCasts_S1x1024_S1x1024 : S1x1024.ShapeCasts S1x1024
  slices_S7x1024_o1_0_S1x1024 : S7x1024.Slices ![1, 0] S1x1024
  slices_S7x1024_o2_0_S1x1024 : S7x1024.Slices ![2, 0] S1x1024
  slices_S7x1024_o3_0_S1x1024 : S7x1024.Slices ![3, 0] S1x1024
  slices_S7x1024_o4_0_S1x1024 : S7x1024.Slices ![4, 0] S1x1024
  slices_S7x1024_o5_0_S1x1024 : S7x1024.Slices ![5, 0] S1x1024
  slices_S7x1024_o6_0_S1x1024 : S7x1024.Slices ![6, 0] S1x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x1024.size a ≤ S7x40960.size a
  hwx0_1 : ∀ i : grid0.Coords, EltTy.bits .f32 = 32 ∨ (Rect.block (s := S7x40960) S7x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x1024.size a ≤ S7x40960.size a
  hwx0_2 : ∀ i : grid0.Coords, EltTy.bits .i32 = 32 ∨ (Rect.block (s := S7x40960) S7x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x40960.size a
  hwx0_3 : ∀ i : grid0.Coords, EltTy.bits .f32 = 32 ∨ (Rect.block (s := S1024x40960) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S7x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S40960x7 : Shape := ⟨2, ![40960, 7]⟩
abbrev S40960x1 : Shape := ⟨2, ![40960, 1]⟩
abbrev S40960 : Shape := ⟨1, ![40960]⟩
abbrev S_ : Shape := ⟨0, ![]⟩
abbrev S1024x40960 : Shape := ⟨2, ![1024, 40960]⟩
abbrev S1x40960 : Shape := ⟨2, ![1, 40960]⟩

abbrev nBuf : Space → Nat
  | .hbm => 121
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S40960x7, .f32⟩
  | .hbm, ⟨2, _⟩ => ⟨S40960x7, .i32⟩
  | .hbm, ⟨3, _⟩ => ⟨S40960x1, .i32⟩
  | .hbm, ⟨4, _⟩ => ⟨S40960, .i32⟩
  | .hbm, ⟨5, _⟩ => ⟨S_, .i32⟩
  | .hbm, ⟨6, _⟩ => ⟨S40960, .i32⟩
  | .hbm, ⟨7, _⟩ => ⟨S40960, .i1⟩
  | .hbm, ⟨8, _⟩ => ⟨S_, .i32⟩
  | .hbm, ⟨9, _⟩ => ⟨S40960, .i32⟩
  | .hbm, ⟨10, _⟩ => ⟨S40960, .i32⟩
  | .hbm, ⟨11, _⟩ => ⟨S40960, .i32⟩
  | .hbm, ⟨12, _⟩ => ⟨S40960x1, .i32⟩
  | .hbm, ⟨13, _⟩ => ⟨S1024x40960, .f32⟩
  | .hbm, ⟨14, _⟩ => ⟨S40960x1, .f32⟩
  | .hbm, ⟨15, _⟩ => ⟨S40960, .f32⟩
  | .hbm, ⟨16, _⟩ => ⟨S1x40960, .f32⟩
  | .hbm, ⟨17, _⟩ => ⟨S1024x40960, .f32⟩
  | .hbm, ⟨18, _⟩ => ⟨S1024x40960, .f32⟩
  | .hbm, ⟨19, _⟩ => ⟨S40960x1, .i32⟩
  | .hbm, ⟨20, _⟩ => ⟨S40960, .i32⟩
  | .hbm, ⟨21, _⟩ => ⟨S_, .i32⟩
  | .hbm, ⟨22, _⟩ => ⟨S40960, .i32⟩
  | .hbm, ⟨23, _⟩ => ⟨S40960, .i1⟩
  | .hbm, ⟨24, _⟩ => ⟨S_, .i32⟩
  | .hbm, ⟨25, _⟩ => ⟨S40960, .i32⟩
  | .hbm, ⟨26, _⟩ => ⟨S40960, .i32⟩
  | .hbm, ⟨27, _⟩ => ⟨S40960, .i32⟩
  | .hbm, ⟨28, _⟩ => ⟨S40960x1, .i32⟩
  | .hbm, ⟨29, _⟩ => ⟨S1024x40960, .f32⟩
  | .hbm, ⟨30, _⟩ => ⟨S40960x1, .f32⟩
  | .hbm, ⟨31, _⟩ => ⟨S40960, .f32⟩
  | .hbm, ⟨32, _⟩ => ⟨S1x40960, .f32⟩
  | .hbm, ⟨33, _⟩ => ⟨S1024x40960, .f32⟩
  | .hbm, ⟨34, _⟩ => ⟨S1024x40960, .f32⟩
  | .hbm, ⟨35, _⟩ => ⟨S1024x40960, .f32⟩
  | .hbm, ⟨36, _⟩ => ⟨S40960x1, .i32⟩
  | .hbm, ⟨37, _⟩ => ⟨S40960, .i32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S1024x40960, .f32⟩
  | .hbm, ⟨47, _⟩ => ⟨S40960x1, .f32⟩
  | .hbm, ⟨48, _⟩ => ⟨S40960, .f32⟩
  | .hbm, ⟨49, _⟩ => ⟨S1x40960, .f32⟩
  | .hbm, ⟨50, _⟩ => ⟨S1024x40960, .f32⟩
  | .hbm, ⟨51, _⟩ => ⟨S1024x40960, .f32⟩
  | .hbm, ⟨52, _⟩ => ⟨S1024x40960, .f32⟩
  | .hbm, ⟨53, _⟩ => ⟨S40960x1, .i32⟩
  | .hbm, ⟨54, _⟩ => ⟨S40960, .i32⟩
  | .hbm, ⟨55, _⟩ => ⟨S_, .i32⟩
  | .hbm, ⟨56, _⟩ => ⟨S40960, .i32⟩
  | .hbm, ⟨57, _⟩ => ⟨S40960, .i1⟩
  | .hbm, ⟨58, _⟩ => ⟨S_, .i32⟩
  | .hbm, ⟨59, _⟩ => ⟨S40960, .i32⟩
  | .hbm, ⟨60, _⟩ => ⟨S40960, .i32⟩
  | .hbm, ⟨61, _⟩ => ⟨S40960, .i32⟩
  | .hbm, ⟨62, _⟩ => ⟨S40960x1, .i32⟩
  | .hbm, ⟨63, _⟩ => ⟨S1024x40960, .f32⟩
  | .hbm, ⟨64, _⟩ => ⟨S40960x1, .f32⟩
  | .hbm, ⟨65, _⟩ => ⟨S40960, .f32⟩
  | .hbm, ⟨66, _⟩ => ⟨S1x40960, .f32⟩
  | .hbm, ⟨67, _⟩ => ⟨S1024x40960, .f32⟩
  | .hbm, ⟨68, _⟩ => ⟨S1024x40960, .f32⟩
  | .hbm, ⟨69, _⟩ => ⟨S1024x40960, .f32⟩
  | .hbm, ⟨70, _⟩ => ⟨S40960x1, .i32⟩
  | .hbm, ⟨71, _⟩ => ⟨S40960, .i32⟩
  | .hbm, ⟨72, _⟩ => ⟨S_, .i32⟩
  | .hbm, ⟨73, _⟩ => ⟨S40960, .i32⟩
  | .hbm, ⟨74, _⟩ => ⟨S40960, .i1⟩
  | .hbm, ⟨75, _⟩ => ⟨S_, .i32⟩
  | .hbm, ⟨76, _⟩ => ⟨S40960, .i32⟩
  | .hbm, ⟨77, _⟩ => ⟨S40960, .i32⟩
  | .hbm, ⟨78, _⟩ => ⟨S40960, .i32⟩
  | .hbm, ⟨79, _⟩ => ⟨S40960x1, .i32⟩
  | .hbm, ⟨80, _⟩ => ⟨S1024x40960, .f32⟩
  | .hbm, ⟨81, _⟩ => ⟨S40960x1, .f32⟩
  | .hbm, ⟨82, _⟩ => ⟨S40960, .f32⟩
  | .hbm, ⟨83, _⟩ => ⟨S1x40960, .f32⟩
  | .hbm, ⟨84, _⟩ => ⟨S1024x40960, .f32⟩
  | .hbm, ⟨85, _⟩ => ⟨S1024x40960, .f32⟩
  | .hbm, ⟨86, _⟩ => ⟨S1024x40960, .f32⟩
  | .hbm, ⟨87, _⟩ => ⟨S40960x1, .i32⟩
  | .hbm, ⟨88, _⟩ => ⟨S40960, .i32⟩
  | .hbm, ⟨89, _⟩ => ⟨S_, .i32⟩
  | .hbm, ⟨90, _⟩ => ⟨S40960, .i32⟩
  | .hbm, ⟨91, _⟩ => ⟨S40960, .i1⟩
  | .hbm, ⟨92, _⟩ => ⟨S_, .i32⟩
  | .hbm, ⟨93, _⟩ => ⟨S40960, .i32⟩
  | .hbm, ⟨94, _⟩ => ⟨S40960, .i32⟩
  | .hbm, ⟨95, _⟩ => ⟨S40960, .i32⟩
  | .hbm, ⟨96, _⟩ => ⟨S40960x1, .i32⟩
  | .hbm, ⟨97, _⟩ => ⟨S1024x40960, .f32⟩
  | .hbm, ⟨98, _⟩ => ⟨S40960x1, .f32⟩
  | .hbm, ⟨99, _⟩ => ⟨S40960, .f32⟩
  | .hbm, ⟨100, _⟩ => ⟨S1x40960, .f32⟩
  | .hbm, ⟨101, _⟩ => ⟨S1024x40960, .f32⟩
  | .hbm, ⟨102, _⟩ => ⟨S1024x40960, .f32⟩
  | .hbm, ⟨103, _⟩ => ⟨S1024x40960, .f32⟩
  | .hbm, ⟨104, _⟩ => ⟨S40960x1, .i32⟩
  | .hbm, ⟨105, _⟩ => ⟨S40960, .i32⟩
  | .hbm, ⟨106, _⟩ => ⟨S_, .i32⟩
  | .hbm, ⟨107, _⟩ => ⟨S40960, .i32⟩
  | .hbm, ⟨108, _⟩ => ⟨S40960, .i1⟩
  | .hbm, ⟨109, _⟩ => ⟨S_, .i32⟩
  | .hbm, ⟨110, _⟩ => ⟨S40960, .i32⟩
  | .hbm, ⟨111, _⟩ => ⟨S40960, .i32⟩
  | .hbm, ⟨112, _⟩ => ⟨S40960, .i32⟩
  | .hbm, ⟨113, _⟩ => ⟨S40960x1, .i32⟩
  | .hbm, ⟨114, _⟩ => ⟨S1024x40960, .f32⟩
  | .hbm, ⟨115, _⟩ => ⟨S40960x1, .f32⟩
  | .hbm, ⟨116, _⟩ => ⟨S40960, .f32⟩
  | .hbm, ⟨117, _⟩ => ⟨S1x40960, .f32⟩
  | .hbm, ⟨118, _⟩ => ⟨S1024x40960, .f32⟩
  | .hbm, ⟨119, _⟩ => ⟨S1024x40960, .f32⟩
  | .hbm, ⟨120, _⟩ => ⟨S1024x40960, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_5 : Ref sig .tc := ⟨.hbm, 55, rfl⟩
abbrev main_v46 : Ref sig .tc := ⟨.hbm, 56, rfl⟩
abbrev main_v47 : Ref sig .tc := ⟨.hbm, 57, rfl⟩
abbrev main_c_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_7 : Ref sig .tc := ⟨.hbm, 72, rfl⟩
abbrev main_v61 : Ref sig .tc := ⟨.hbm, 73, rfl⟩
abbrev main_v62 : Ref sig .tc := ⟨.hbm, 74, rfl⟩
abbrev main_c_8 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_c_9 : Ref sig .tc := ⟨.hbm, 89, rfl⟩
abbrev main_v76 : Ref sig .tc := ⟨.hbm, 90, rfl⟩
abbrev main_v77 : Ref sig .tc := ⟨.hbm, 91, rfl⟩
abbrev main_c_10 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_c_11 : Ref sig .tc := ⟨.hbm, 106, rfl⟩
abbrev main_v91 : Ref sig .tc := ⟨.hbm, 107, rfl⟩
abbrev main_v92 : Ref sig .tc := ⟨.hbm, 108, rfl⟩
abbrev main_c_12 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩

abbrev nD : Nat := 1
abbrev τ : Topo := Topo.v7x

variable {F : FTy → Type} [FloatOps F]

class Facts₀ : Prop where
  slices_S40960x7_S40960x1_0_0 : S40960x7.Slices ![0, 0] S40960x1
  shapeCasts_S40960x1_S40960 : S40960x1.ShapeCasts S40960
  bcast_S_S40960 : S_.BroadcastsInDim S40960 (![] : Fin 0 → Fin S40960.rank)
  bcast_S40960_S40960x1_0 : S40960.BroadcastsInDim S40960x1 (![0] : Fin 1 → Fin S40960x1.rank)
  bcast_S40960_S1x40960_1 : S40960.BroadcastsInDim S1x40960 (![1] : Fin 1 → Fin S1x40960.rank)
  bcast_S1x40960_S1024x40960_0_1 : S1x40960.BroadcastsInDim S1024x40960 (![0, 1] : Fin 2 → Fin S1024x40960.rank)
  slices_S40960x7_S40960x1_0_1 : S40960x7.Slices ![0, 1] S40960x1
  slices_S40960x7_S40960x1_0_2 : S40960x7.Slices ![0, 2] S40960x1
  slices_S40960x7_S40960x1_0_3 : S40960x7.Slices ![0, 3] S40960x1
  slices_S40960x7_S40960x1_0_4 : S40960x7.Slices ![0, 4] S40960x1
  slices_S40960x7_S40960x1_0_5 : S40960x7.Slices ![0, 5] S40960x1
  slices_S40960x7_S40960x1_0_6 : S40960x7.Slices ![0, 6] S40960x1
  gather_S1024x1024_S40960x1_S1024x40960_0_1_n_n_1_1_10241_wf : GatherDims.WF S1024x1024 S40960x1 S1024x40960 [0] [1] [] [1] [] 1 ![1024, 1]

variable [Facts₀]

def gather_S1024x1024_S40960x1_S1024x40960_0_1_n_n_1_1_10241 : GatherDims S1024x1024 S40960x1 S1024x40960 where
  offsetDims := [0]
  collapsedSliceDims := [1]
  operandBatchingDims := []
  startIndicesBatchingDims := []
  startIndexMap := [1]
  indexVectorDim := 1
  sliceSizes := ![1024, 1]
  wf := gather_S1024x1024_S40960x1_S1024x40960_0_1_n_n_1_1_10241_wf

class Facts : Prop extends Facts₀ where

variable [Facts]
-- ==== Proof.ScratchChain.lean ====
/-
  What one grid point leaves in the output block.

  The body keeps the selector in a scratch array it overwrites WHOLE eight times — zeros, then seven times
  "what is there plus tap k" — and reads it back whole before each overwrite and once more at the end, when it
  multiplies the input block by it. A whole-array read after whole-array writes sees the LAST write, whatever
  came before; so the scratch passes through the chain `s 0 = 0`, `s (k+1) = s k + tap k`, and the output block is
  the matrix product of the input block with `s 7`. The chain is a function of the point's two tap blocks alone:
  the scratch carries nothing from one grid point to the next.
-/
import proofs.«412259_j73547019976715_1_alg».proof.Proof.Gen.KernelIdeal.Frame
import Idealize.ShloMosaic.Lib.Pipeline.Value

set_option maxRecDepth 16384

noncomputable section

namespace Idealize.ShloMosaic.View

variable {Val : EltTy → Type} {S : Shape} {e : EltTy}

/-- A whole-array load after a list of stores whose LAST is a whole-array store reads that store's payload. -/
theorem readCov_last_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

namespace Cert.KernelIdeal.Chain

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The row counter the taps compare against. -/
abbrev rows : IVec S1024x1024 32 := iota .tc S1024x1024 32 [0] Facts₀.iota_S1024x1024_d0_w32

/-- The scratch after the reset and the first `n` taps, as the body's own terms of the weight block `W` and the
    index block `I` (the body spells the first two taps over the blocks as loaded and the later ones over their
    identity reshapes, and splits tap 4 in two). -/
def s1 (W : Vec F S7x1024 .f32) (I : Vec F S7x1024 .i32) : FVec F S1024x1024 .f32 := k0_pay5 I W k0_pay4
def s2 (W : Vec F S7x1024 .f32) (I : Vec F S7x1024 .i32) : FVec F S1024x1024 .f32 := k0_pay7 (k0_pay6 I W (s1 W I))
def s3 (W : Vec F S7x1024 .f32) (I : Vec F S7x1024 .i32) : FVec F S1024x1024 .f32 := k0_pay8 (k0_pay2 I) (k0_pay3 W) rows (s2 W I)
def s4 (W : Vec F S7x1024 .f32) (I : Vec F S7x1024 .i32) : FVec F S1024x1024 .f32 := k0_pay9 (k0_pay2 I) (k0_pay3 W) rows (s3 W I)
def s5 (W : Vec F S7x1024 .f32) (I : Vec F S7x1024 .i32) : FVec F S1024x1024 .f32 :=
  k0_pay12 (k0_pay10 (k0_pay3 W)) (k0_pay11 (k0_pay2 I) rows) (s4 W I)
def s6 (W : Vec F S7x1024 .f32) (I : Vec F S7x1024 .i32) : FVec F S1024x1024 .f32 := k0_pay13 (k0_pay2 I) (k0_pay3 W) rows (s5 W I)
def s7 (W : Vec F S7x1024 .f32) (I : Vec F S7x1024 .i32) : FVec F S1024x1024 .f32 := k0_pay14 (k0_pay2 I) (k0_pay3 W) rows (s6 W I)

section
variable (c : Dev nD) (arg2 : Memref sig .tc .vmem S7x1024 .f32) (harg2 : arg2.IsWhole)
  (arg3 : Memref sig .tc .vmem S7x1024 .i32) (harg3 : arg3.IsWhole) (arg5 : Memref sig .tc .vmem S1024x1024 .f32)
  (x1 : Vec F S7x1024 .f32) (x2 : Vec F S7x1024 .i32)

/-- The tap blocks as the body loads them: whole. -/
theorem loadW : View.readAt (Elt F) arg2.view (Rect.unit ![0, 0] S7x1024.size Facts₀.inb_S7x1024_S7x1024_0_0).toLoadRect
    (harg2.unread x1) = x1 := by
  simp only [View.readAt_eq_ld, harg2.read_unread, View.ld_unit_zero (S := S7x1024) hz]
theorem loadI : View.readAt (Elt F) arg3.view (Rect.unit ![0, 0] S7x1024.size Facts₀.inb_S7x1024_S7x1024_0_0).toLoadRect
    (harg3.unread x2) = x2 := by
  simp only [View.readAt_eq_ld, harg3.read_unread, View.ld_unit_zero (S := S7x1024) hz]

theorem read0 : kernelRun0_A.sl.v17 (F := F) c arg5 = k0_pay4 := by
  unfold kernelRun0_A.sl.v17 kernelRun0_A.sl.HS0_1
  exact View.readCov_last_whole (S := S1024x1024) _ hz _ _ _

theorem read1 : kernelRun0_A.sl.v34 c arg2 harg2 arg3 harg3 arg5 x1 x2 = s1 x1 x2 := by
  unfold kernelRun0_A.sl.v34 kernelRun0_A.sl.HS0_2
  rw [View.readCov_last_whole (S := S1024x1024) _ hz, read0, loadW, loadI]
  rfl

theorem read2 : kernelRun0_A.sl.v51 c arg2 harg2 arg3 harg3 arg5 x1 x2 = s2 x1 x2 := by
  unfold kernelRun0_A.sl.v51 kernelRun0_A.sl.HS0_3 kernelRun0_A.sl.r_2
  rw [View.readCov_last_whole (S := S1024x1024) _ hz, read1, loadW, loadI]
  rfl

theorem wordsI : kernelRun0_A.sl.r (F := F) c arg3 harg3 x2 = k0_pay2 x2 := by
  unfold kernelRun0_A.sl.r; rw [loadI]
theorem wordsW : kernelRun0_A.sl.r_1 (F := F) c arg2 harg2 x1 = k0_pay3 x1 := by
  unfold kernelRun0_A.sl.r_1; rw [loadW]

theorem read3 : kernelRun0_A.sl.v68 c arg2 harg2 arg3 harg3 arg5 x1 x2 = s3 x1 x2 := by
  unfold kernelRun0_A.sl.v68 kernelRun0_A.sl.HS0_4
  rw [View.readCov_last_whole (S := S1024x1024) _ hz, read2, wordsI, wordsW]
  rfl

theorem read4 : kernelRun0_A.sl.v85 c arg2 harg2 arg3 harg3 arg5 x1 x2 = s4 x1 x2 := by
  unfold kernelRun0_A.sl.v85 kernelRun0_A.sl.HS0_5
  rw [View.readCov_last_whole (S := S1024x1024) _ hz, read3, wordsI, wordsW]
  rfl

theorem read5 : kernelRun0_A.sl.v102 c arg2 harg2 arg3 harg3 arg5 x1 x2 = s5 x1 x2 := by
  unfold kernelRun0_A.sl.v102 kernelRun0_A.sl.HS0_6 kernelRun0_A.sl.r_3 kernelRun0_A.sl.r_4
  rw [View.readCov_last_whole (S := S1024x1024) _ hz, read4, wordsI, wordsW]
  rfl

theorem read6 : kernelRun0_A.sl.v119 c arg2 harg2 arg3 harg3 arg5 x1 x2 = s6 x1 x2 := by
  unfold kernelRun0_A.sl.v119 kernelRun0_A.sl.HS0_7
  rw [View.readCov_last_whole (S := S1024x1024) _ hz, read5, wordsI, wordsW]
  rfl

theorem read7 : kernelRun0_A.sl.v128 c arg2 harg2 arg3 harg3 arg5 x1 x2 = s7 x1 x2 := by
  unfold kernelRun0_A.sl.v128 kernelRun0_A.sl.HS0_8
  rw [View.readCov_last_whole (S := S1024x1024) _ hz, read6, wordsI, wordsW]
  rfl

end

/-- WHAT A POINT LEAVES: the product of the input block `X` with the selector `s7` of the point's tap blocks. -/
theorem out_eq (c : Dev nD) (i : grid0.Coords) (arg1 : Memref sig .tc .vmem S1024x1024 .bf16) (harg1 : arg1.IsWhole) (arg2 : Memref sig .tc .vmem S7x1024 .f32) (harg2 : arg2.IsWhole) (arg3 : Memref sig .tc .vmem S7x1024 .i32) (harg3 : arg3.IsWhole) (arg4 : Memref sig .tc .vmem S1024x1024 .f32) (harg4 : arg4.IsWhole) (arg5 : Memref sig .tc .vmem S1024x1024 .f32) (harg5 : arg5.IsWhole)
    (x0 : Vec F S1024x1024 .bf16) (x1 : Vec F S7x1024 .f32) (x2 : Vec F S7x1024 .i32) :
    out0_A_3 c i arg1 harg1 arg2 harg2 arg3 harg3 arg4 harg4 arg5 harg5 x0 x1 x2 = k0_pay1 (s7 x1 x2) x0 := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero hz, read7]
  simp only [View.readAt_eq_ld, harg1.read_unread, View.ld_unit_zero (S := S1024x1024) hz]

end Cert.KernelIdeal.Chain

end
-- ==== Proof.SelectorTaps.lean ====
/-
  One tap of the selector, read at an entry.

  The kernel keeps the taps of its 1024 output columns as two `[7, 1024]` blocks (row `k` = tap `k`): the row
  indices `I` and the weights `W`. For tap `k` it takes row `k` of each block, lays it down all 1024 rows of a
  `[1024, 1024]` array, compares the index copy with the row counter, and keeps the weight where they agree and zero
  elsewhere. At entry `(i, o)` that is: `W[k,o]` if row `i` is the row the word `I[k,o]` spells, else `0`.
-/
import proofs.«412259_j73547019976715_1_alg».proof.Proof.Gen.KernelIdeal.Skeleton
import Idealize.ShloMosaic.Lib.ValueIdx
import Idealize.ShloMosaic.Lib.ValueLayout

noncomputable section

namespace Cert.KernelIdeal.Taps

open Cert.KernelIdeal Idealize.ShloMosaic Idealize.ShloMosaic.ValueIdx

variable {α : Type}

/-- Row `k` of a `[7, 1024]` block, taken as a `[1, 1024]` slice, flattened, raised again and laid down 1024 rows:
    entry `(i, o)` of the result is the block's entry `(k, o)`, whatever the row `i`. -/
theorem row_laid_apply (k : Nat) (hk : k < 7) (B : S7x1024.Idx → α) (hs : S7x1024.Slices ![k, 0] S1x1024)
    (h1 : S1x1024.ShapeCasts S1024) (h2 : S1024.ShapeCasts S1x1024) (hb : S1x1024.Broadcasts S1024x1024)
    (i o : Fin 1024) :
    broadcastTo S1024x1024 (shapeCast S1x1024 (shapeCast S1024 (extractStridedSlice S1x1024 ![k, 0] B hs) h1) h2) hb (ix2 i o)
      = B (ix2 (⟨k, hk⟩ : Fin 7) o) := by
  rw [broadcastTo_1b_ab_apply, shapeCast_a_1a_apply, shapeCast_1a_a_apply,
    slice2_axis0_apply k B hs (0 : Fin 1) o (⟨k, hk⟩ : Fin 7) (by simp)]

/-- The row counter: entry `(i, o)` of the iota along the rows is the word spelling `i`. -/
theorem rows_apply [Facts] (i o : Fin 1024) :
    iota .tc S1024x1024 32 [0] Facts₀.iota_S1024x1024_d0_w32 (ix2 i o) = BitVec.ofNat 32 i.val := by
  show BitVec.ofNat 32 (0 * 1024 + i.val) = _
  rw [Nat.zero_mul, Nat.zero_add]

/-- A select on an equality test of words is the `if` on the equality. -/
theorem select_eq (a b : BitVec 32) (v z : α) :
    Scalar.select (IntOp.cmpi .eq a b) v z = if a = b then v else z := by
  unfold Scalar.select IntOp.cmpi
  by_cases h : a = b
  · subst h; simp
  · have hb : (a == b) = false := by simpa using h
    simp [hb, h]

end Cert.KernelIdeal.Taps

end
-- ==== Proof.SelectorEntry.lean ====
/-
  The selector at an entry, over the extended reals.

  Adding tap `k` to an accumulator changes entry `(i, o)` by the weight `W[k,o]` when the word `I[k,o]` spells
  the row `i`, and by zero otherwise. Unrolled over the body's chain the finished selector is, at `(i, o)`,
  `0 + t₀ + t₁ + … + t₆` with `t_k = if i is the row I[k,o] spells then W[k,o] else 0`, summed in that order.
-/
import proofs.«412259_j73547019976715_1_alg».proof.Proof.ScratchChain
import proofs.«412259_j73547019976715_1_alg».proof.Proof.SelectorTaps
import Idealize.ShloMosaic.PureOps.Ideal.Laws

noncomputable section

namespace Cert.KernelIdeal.Entry

open Cert.KernelIdeal Cert.KernelIdeal.Gen Cert.KernelIdeal.Chain Cert.KernelIdeal.Taps Idealize.ShloMosaic Idealize.ShloMosaic.ValueIdx

/-- The row counter at entry `(i, o)` is the word spelling `i`. -/
theorem rows_at (i o : Fin 1024) : rows (ix2 i o) = BitVec.ofNat 32 i.val := rows_apply i o

/-- Tap `k` at entry `(i, o)`: the weight where the index word spells the row, zero elsewhere. -/
def tap (W : FVec Ideal S7x1024 .f32) (I : IVec S7x1024 32) (k : Fin 7) (i o : Fin 1024) : EReal :=
  if BitVec.ofNat 32 i.val = I (ix2 k o) then W (ix2 k o) else 0

/-- ADDING A TAP: the body's compare, select and add over rows laid down the array, read at one entry. -/
theorem add_tap_apply (k : Nat) (hk : k < 7) (acc : FVec Ideal S1024x1024 .f32) (I : IVec S7x1024 32) (W : FVec Ideal S7x1024 .f32)
    (hs : S7x1024.Slices ![k, 0] S1x1024) (h1 : S1x1024.ShapeCasts S1024) (h2 : S1024.ShapeCasts S1x1024)
    (hb : S1x1024.Broadcasts S1024x1024) (i o : Fin 1024) :
    addf acc (select (cmpi .eq rows (broadcastTo S1024x1024 (shapeCast S1x1024 (shapeCast S1024 (extractStridedSlice S1x1024 ![k, 0] I hs) h1) h2) hb))
        (broadcastTo S1024x1024 (shapeCast S1x1024 (shapeCast S1024 (extractStridedSlice S1x1024 ![k, 0] W hs) h1) h2) hb)
        (broadcast S1024x1024 (Scalar.ofBits (F := Ideal) .f32 0x00000000#32))) (ix2 i o)
      = acc (ix2 i o) + tap W I ⟨k, hk⟩ i o := by
  rw [addf_apply, select_apply, row_laid_apply k hk W, broadcast_apply]
  show acc (ix2 i o) + Scalar.select (IntOp.cmpi .eq (rows (ix2 i o)) (broadcastTo S1024x1024 _ hb (ix2 i o))) _ _ = _
  rw [rows_at, row_laid_apply k hk I, select_eq]
  show _ + (if _ then _ else Ideal.ofBits .f32 0x00000000#32) = _
  rw [Ideal.ofBits_zero_f32]
  rfl

variable (W : FVec Ideal S7x1024 .f32) (I : IVec S7x1024 32) (i o : Fin 1024)

theorem s0_apply : k0_pay4 (F := Ideal) (ix2 i o) = 0 := by
  unfold k0_pay4
  rw [shapeCast_self, broadcast_apply]
  exact Ideal.ofBits_zero_f32

theorem s1_apply : s1 (F := Ideal) W I (ix2 i o) = 0 + tap W I ⟨0, by decide⟩ i o := by
  unfold s1 k0_pay5 k0_pay2 k0_pay3
  dsimp only
  simp only [shapeCast_self]
  refine (add_tap_apply 0 (by decide) _ I W _ _ _ _ i o).trans ?_
  rw [s0_apply]

theorem s2_apply : s2 (F := Ideal) W I (ix2 i o) = s1 (F := Ideal) W I (ix2 i o) + tap W I ⟨1, by decide⟩ i o := by
  unfold s2 k0_pay7 k0_pay6 k0_pay2 k0_pay3
  dsimp only
  simp only [shapeCast_self]
  exact add_tap_apply 1 (by decide) _ I W _ _ _ _ i o

theorem s3_apply : s3 (F := Ideal) W I (ix2 i o) = s2 (F := Ideal) W I (ix2 i o) + tap W I ⟨2, by decide⟩ i o := by
  unfold s3 k0_pay8 k0_pay2 k0_pay3
  dsimp only
  simp only [shapeCast_self]
  exact add_tap_apply 2 (by decide) _ I W _ _ _ _ i o

theorem s4_apply : s4 (F := Ideal) W I (ix2 i o) = s3 (F := Ideal) W I (ix2 i o) + tap W I ⟨3, by decide⟩ i o := by
  unfold s4 k0_pay9 k0_pay2 k0_pay3
  dsimp only
  simp only [shapeCast_self]
  exact add_tap_apply 3 (by decide) _ I W _ _ _ _ i o

theorem s5_apply : s5 (F := Ideal) W I (ix2 i o) = s4 (F := Ideal) W I (ix2 i o) + tap W I ⟨4, by decide⟩ i o := by
  unfold s5 k0_pay12 k0_pay10 k0_pay11 k0_pay2 k0_pay3
  dsimp only
  simp only [shapeCast_self]
  exact add_tap_apply 4 (by decide) _ I W _ _ _ _ i o

theorem s6_apply : s6 (F := Ideal) W I (ix2 i o) = s5 (F := Ideal) W I (ix2 i o) + tap W I ⟨5, by decide⟩ i o := by
  unfold s6 k0_pay13 k0_pay2 k0_pay3
  dsimp only
  simp only [shapeCast_self]
  exact add_tap_apply 5 (by decide) _ I W _ _ _ _ i o

theorem s7_apply : s7 (F := Ideal) W I (ix2 i o) = s6 (F := Ideal) W I (ix2 i o) + tap W I ⟨6, by decide⟩ i o := by
  unfold s7 k0_pay14 k0_pay2 k0_pay3
  dsimp only
  simp only [shapeCast_self]
  exact add_tap_apply 6 (by decide) _ I W _ _ _ _ i o

/-- THE FINISHED SELECTOR at `(i, o)`: zero and the seven taps, in order. -/
theorem selector_apply : s7 (F := Ideal) W I (ix2 i o)
    = 0 + tap W I ⟨0, by decide⟩ i o + tap W I ⟨1, by decide⟩ i o + tap W I ⟨2, by decide⟩ i o + tap W I ⟨3, by decide⟩ i o
      + tap W I ⟨4, by decide⟩ i o + tap W I ⟨5, by decide⟩ i o + tap W I ⟨6, by decide⟩ i o := by
  rw [s7_apply, s6_apply, s5_apply, s4_apply, s3_apply, s2_apply, s1_apply]

end Cert.KernelIdeal.Entry

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.FanIn.lean ====
/-
  A fixed fan-in projection, two ways.

  Each output column `o` has seven taps; tap `k` names a row `idx[o,k]` of the input and a weight `vals[o,k]`.
  DENSE: build the 1024-row selector column `S[·,o]` — start from zero and add, tap by tap, the weight on the
  named row and zero on every other row — and take the matrix product `y[b,o] = Σ_i x[b,i] · S[i,o]`.
  GATHERED: `y[b,o] = x[b,idx[o,0]]·vals[o,0] + … + x[b,idx[o,6]]·vals[o,6]`, summed in that order.
  When every entry of `x` and `vals` is a real number and every index lies in `[0, 1024)` the two agree: the
  product distributes over the seven taps, the sums over rows and taps exchange, and the sum over rows of
  `x[b,i] · [i = idx[o,k]] · vals[o,k]` has one nonzero term. Both facts are needed: distributivity fails at the
  infinities of the extended reals, and an index outside the range selects no row at all.
-/
import Idealize.ShloMosaic.PureOps.Ideal
import Idealize.ShloMosaic.Lib.ValueIdx

noncomputable section

open scoped BigOperators

namespace Cert.FanIn

open Idealize.ShloMosaic Idealize.ShloMosaic.ValueIdx

/-- The input `x`: 1024 batch rows of 1024 features. -/
abbrev SX : Shape := ⟨2, ![1024, 1024]⟩
/-- The taps: 40960 output columns, seven taps each (weights and row indices share the shape). -/
abbrev SW : Shape := ⟨2, ![40960, 7]⟩
/-- The output `y`. -/
abbrev SY : Shape := ⟨2, ![1024, 40960]⟩

/-! ## The real-number law -/

/-- Over the reals: a row of `a` against a column that is zero plus seven indicator taps is the seven tapped
    entries of `a`, weighted. -/
theorem sum_mul_taps {n : ℕ} (a : Fin n → ℝ) (p : Fin 7 → Fin n) (v : Fin 7 → ℝ) :
    ∑ i : Fin n, a i * (0 + (if i = p 0 then v 0 else 0) + (if i = p 1 then v 1 else 0) + (if i = p 2 then v 2 else 0)
        + (if i = p 3 then v 3 else 0) + (if i = p 4 then v 4 else 0) + (if i = p 5 then v 5 else 0)
        + (if i = p 6 then v 6 else 0))
      = a (p 0) * v 0 + a (p 1) * v 1 + a (p 2) * v 2 + a (p 3) * v 3 + a (p 4) * v 4 + a (p 5) * v 5 + a (p 6) * v 6 := by
  simp only [mul_add, mul_zero, Finset.sum_add_distrib, mul_ite, Finset.sum_ite_eq', Finset.mem_univ, if_true,
    Finset.sum_const_zero, zero_add]

/-- A finite sum of real numbers, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law on extended reals that are real numbers. -/
theorem sum_mul_taps_coe {n : ℕ} (a : Fin n → ℝ) (p : Fin 7 → Fin n) (v : Fin 7 → ℝ) :
    ∑ i : Fin n, (a i : EReal) * (0 + (if i = p 0 then (v 0 : EReal) else 0) + (if i = p 1 then (v 1 : EReal) else 0)
        + (if i = p 2 then (v 2 : EReal) else 0) + (if i = p 3 then (v 3 : EReal) else 0) + (if i = p 4 then (v 4 : EReal) else 0)
        + (if i = p 5 then (v 5 : EReal) else 0) + (if i = p 6 then (v 6 : EReal) else 0))
      = (a (p 0) : EReal) * v 0 + a (p 1) * v 1 + a (p 2) * v 2 + a (p 3) * v 3 + a (p 4) * v 4 + a (p 5) * v 5 + a (p 6) * v 6 := by
  have hite : ∀ (c : Prop) [Decidable c] (r : ℝ), (if c then (r : EReal) else 0) = ((if c then r else 0 : ℝ) : EReal) := by
    intro c _ r; split_ifs <;> simp
  simp only [hite]
  simp only [← EReal.coe_zero, ← EReal.coe_add, ← EReal.coe_mul, ← coe_sum]
  exact congrArg _ (sum_mul_taps a p v)

/-! ## Words as row numbers -/

/-- A row number below 1024 is the 32-bit word `w` exactly when it is `w`'s value. -/
theorem ofNat_eq_iff (i : Fin 1024) (w : BitVec 32) (hw : w.toNat < 1024) :
    BitVec.ofNat 32 i.val = w ↔ i = ⟨w.toNat, hw⟩ := by
  constructor
  · intro h
    apply Fin.ext
    have h' := congrArg BitVec.toNat h
    rw [BitVec.toNat_ofNat, Nat.mod_eq_of_lt (by have := i.isLt; omega)] at h'
    exact h'
  · rintro rfl
    rw [BitVec.ofNat_toNat, BitVec.setWidth_eq]

/-! ## The two whole-array functions -/

/-- Tap `k` of output column `O` at row `i`: the weight if `i` is the row the tap's index word spells, else zero. -/
def wtap (w : SW.Idx → EReal) (ia : SW.Idx → BitVec 32) (k : Fin 7) (i : Fin 1024) (O : Fin 40960) : EReal :=
  if BitVec.ofNat 32 i.val = ia (ix2 O k) then w (ix2 O k) else 0

/-- DENSE: the input against the selector column, the column being zero plus its seven taps in order. -/
def dense (x : SX.Idx → EReal) (w : SW.Idx → EReal) (ia : SW.Idx → BitVec 32) : SY.Idx → EReal := fun j =>
  ∑ i : Fin 1024, x (ix2 (j 0) i) * (0 + wtap w ia ⟨0, by decide⟩ i (j 1) + wtap w ia ⟨1, by decide⟩ i (j 1)
    + wtap w ia ⟨2, by decide⟩ i (j 1) + wtap w ia ⟨3, by decide⟩ i (j 1) + wtap w ia ⟨4, by decide⟩ i (j 1)
    + wtap w ia ⟨5, by decide⟩ i (j 1) + wtap w ia ⟨6, by decide⟩ i (j 1))

/-- How an index word is read along an axis of 1024: a negative word counts from the end (`w + 1024`) … -/
def wrap (w : BitVec 32) : BitVec 32 := Scalar.select (IntOp.cmpi .slt w 0#32) (IntOp.addi w 1024#32) w
/-- … and the result, read signed, is clamped into the axis. -/
def pos (w : BitVec 32) : Fin 1024 := ⟨min (wrap w).toInt.toNat (1024 - 1), by omega⟩

/-- GATHERED: the seven tapped entries of the input row, each times its weight, summed in order. -/
def gathered (x : SX.Idx → EReal) (w : SW.Idx → EReal) (ia : SW.Idx → BitVec 32) : SY.Idx → EReal := fun j =>
  x (ix2 (j 0) (pos (ia (ix2 (j 1) ⟨0, by decide⟩)))) * w (ix2 (j 1) ⟨0, by decide⟩)
    + x (ix2 (j 0) (pos (ia (ix2 (j 1) ⟨1, by decide⟩)))) * w (ix2 (j 1) ⟨1, by decide⟩)
    + x (ix2 (j 0) (pos (ia (ix2 (j 1) ⟨2, by decide⟩)))) * w (ix2 (j 1) ⟨2, by decide⟩)
    + x (ix2 (j 0) (pos (ia (ix2 (j 1) ⟨3, by decide⟩)))) * w (ix2 (j 1) ⟨3, by decide⟩)
    + x (ix2 (j 0) (pos (ia (ix2 (j 1) ⟨4, by decide⟩)))) * w (ix2 (j 1) ⟨4, by decide⟩)
    + x (ix2 (j 0) (pos (ia (ix2 (j 1) ⟨5, by decide⟩)))) * w (ix2 (j 1) ⟨5, by decide⟩)
    + x (ix2 (j 0) (pos (ia (ix2 (j 1) ⟨6, by decide⟩)))) * w (ix2 (j 1) ⟨6, by decide⟩)

/-- A word in `[0, 1024)` read signed: it is not negative, so it is not wrapped, and its value is in the axis, so it is
    not clamped: it names the row of its own value. -/
theorem pos_of_inRange (w : BitVec 32) (h0 : 0 ≤ w.toInt) (h1 : w.toInt < 1024) :
    ∃ hw : w.toNat < 1024, pos w = ⟨w.toNat, hw⟩ := by
  have hnat : w.toInt = (w.toNat : Int) := by
    rw [BitVec.toInt_eq_toNat_cond] at h0 ⊢
    split
    · rfl
    · rename_i hge
      exfalso
      rw [if_neg hge] at h0
      have := w.isLt
      omega
  have hw : w.toNat < 1024 := by omega
  refine ⟨hw, ?_⟩
  have hslt : IntOp.cmpi .slt w 0#32 = 0#1 := by
    unfold IntOp.cmpi
    have : w.slt 0#32 = false := by
      rw [BitVec.slt_eq_decide]  -- w.toInt < 0
      simp only [BitVec.toInt_zero, decide_eq_false_iff_not, not_lt]
      exact h0
    simp [this]
  apply Fin.ext
  show min (wrap w).toInt.toNat (1024 - 1) = w.toNat
  unfold wrap
  rw [hslt, select_zero, hnat]
  simp only [Int.toNat_natCast]
  omega

/-- THE LAW: on real entries and in-range indices the dense product is the gathered sum. -/
theorem dense_eq_gathered (x : SX.Idx → EReal) (w : SW.Idx → EReal) (ia : SW.Idx → BitVec 32)
    (hx : ∀ j, x j ≠ ⊥ ∧ x j ≠ ⊤) (hw : ∀ j, w j ≠ ⊥ ∧ w j ≠ ⊤)
    (hr : ∀ j, 0 ≤ (ia j).toInt ∧ (ia j).toInt < 1024) :
    dense x w ia = gathered x w ia := by
  funext j
  -- the entries as real numbers
  have ex : ∀ q, x q = ((x q).toReal : EReal) := fun q => (EReal.coe_toReal (hx q).2 (hx q).1).symm
  have ew : ∀ q, w q = ((w q).toReal : EReal) := fun q => (EReal.coe_toReal (hw q).2 (hw q).1).symm
  -- the seven rows the column's taps name
  have hp : ∀ k : Fin 7, ∃ hk : (ia (ix2 (j 1) k)).toNat < 1024, pos (ia (ix2 (j 1) k)) = ⟨(ia (ix2 (j 1) k)).toNat, hk⟩ :=
    fun k => pos_of_inRange _ (hr _).1 (hr _).2
  have htap : ∀ (k : Fin 7) (i : Fin 1024), wtap w ia k i (j 1)
      = if i = pos (ia (ix2 (j 1) k)) then (((w (ix2 (j 1) k)).toReal : ℝ) : EReal) else 0 := by
    intro k i
    obtain ⟨hk, e⟩ := hp k
    unfold wtap
    rw [e, ← ew]
    exact if_congr (ofNat_eq_iff i _ hk) rfl rfl
  show ∑ i : Fin 1024, x (ix2 (j 0) i) * _ = _
  simp only [htap]
  rw [Finset.sum_congr rfl (fun i _ => by rw [ex (ix2 (j 0) i)])]
  have := sum_mul_taps_coe (fun i : Fin 1024 => (x (ix2 (j 0) i)).toReal)
    (fun k => pos (ia (ix2 (j 1) k))) (fun k => (w (ix2 (j 1) k)).toReal)
  refine this.trans ?_
  unfold gathered
  simp only [← ex, ← ew]
  rfl

end Cert.FanIn

end
-- ==== Proof.WholeArray.lean ====
/-
  From the grid's blocks to the whole output array.

  Grid point `t` (of 40) works on output columns `1024·t … 1024·t + 1023`: it is handed the whole input `x`
  (cast to bf16 by the host, which changes no value over the extended reals), and the slices of the TRANSPOSED tap
  arrays `vals.T`, `idx.T : [7, 40960]` under those columns, and it writes block `(0, t)` of the `[1024, 40960]` result.
  Entry `(b, o)` of the block it writes is the dense product at `(b, 1024·t + o)`: the product over rows `i` of `x[b,i]`
  with the selector column built from `vals[1024·t + o, ·]`, `idx[1024·t + o, ·]`. The 40 blocks tile the result, so
  after the run the result array IS the dense product of the three argument arrays.
-/
import proofs.«412259_j73547019976715_1_alg».proof.Proof.Gen.KernelIdeal.Value
import proofs.«412259_j73547019976715_1_alg».proof.Proof.SelectorEntry
import proofs.«412259_j73547019976715_1_alg».proof.Proof.LibPlainDot
import proofs.«412259_j73547019976715_1_alg».proof.Proof.FanIn
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Cert.KernelIdeal.Chain Cert.KernelIdeal.Entry
open Idealize.ShloMosaic Idealize.ShloMosaic.TcCoe Idealize.ShloMosaic.ValueIdx Idealize.SL.Sem
open Idealize.ShloMosaic.Pipeline (Dat)
open Cert.FanIn (dense wtap)

variable (m : (ℓ : Loc nD τ sig) → Buf (Elt Ideal) ℓ) (ρ : Dev nD → PrngReg)

/-- The three argument arrays on core `c`. -/
abbrev xArr (c : Dev nD) : FVec Ideal S1024x1024 .f32 := m ((c : Thread nD τ).loc main_arg0)
abbrev wArr (c : Dev nD) : FVec Ideal S40960x7 .f32 := m ((c : Thread nD τ).loc main_arg1)
abbrev iArr (c : Dev nD) : IVec S40960x7 32 := m ((c : Thread nD τ).loc main_arg2)

/-! ## What the host hands the region -/

theorem V_x (c : Dev nD) : (V m c main_v0 : S1024x1024.Idx → EReal) = truncf .bf16 (xArr m c) Facts₀.bitsLt_bf16_f32 := by
  dsimp only [Gen.V, Gen.hostOps0]; after_results

theorem V_w (c : Dev nD) : (V m c main_v1 : S7x40960.Idx → EReal)
    = transpose S7x40960 [1, 0] (wArr m c) Facts₀.transposes_S40960x7_S7x40960_1_0 := by
  dsimp only [Gen.V, Gen.hostOps0]; after_results

theorem V_i (c : Dev nD) : (V m c main_v2 : S7x40960.Idx → BitVec 32)
    = transpose S7x40960 [1, 0] (iArr m c) Facts₀.transposes_S40960x7_S7x40960_1_0 := by
  dsimp only [Gen.V, Gen.hostOps0]; after_results

/-! ## The windows' blocks -/

/-- The printed index maps over the grid: the input stays at block `(0, 0)`; the two tap windows and the output move along
    the columns with the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The input window's block is the input itself. -/
theorem xblk_apply (c : Dev nD) (t : Fin cfg0.N) (b i : Fin 1024) :
    (iblk m c 0 t : Vec Ideal S1024x1024 .bf16) (ix2 b i) = xArr m c (ix2 b i) := by
  obtain ⟨e0, e1, -⟩ := idx_facts t
  unfold iblk
  rw [View.read_apply]
  show (V m c main_v0 : S1024x1024.Idx → EReal) _ = _
  rw [V_x, truncf_apply]
  congr 1
  funext a; apply Fin.ext
  match a with
  | ⟨0, _⟩ => show win0_0.index t (0 : Fin 2) * 1024 + 1 * b.val = b.val; omega
  | ⟨1, _⟩ => show win0_0.index t (1 : Fin 2) * 1024 + 1 * i.val = i.val; omega

/-- The weight window's block at point `t`: tap `k` of column `o` of the block is `vals[1024·t + o, k]`. -/
theorem wblk_apply (c : Dev nD) (t : Fin cfg0.N) (k : Fin 7) (o : Fin 1024) (O : Fin 40960) (hO : O.val = t.val * 1024 + o.val) :
    (iblk m c 1 t : Vec Ideal S7x1024 .f32) (ix2 k o) = wArr m c (ix2 O k) := by
  obtain ⟨-, -, e0, e1, -⟩ := idx_facts t
  unfold iblk
  rw [View.read_apply]
  show (V m c main_v1 : S7x40960.Idx → EReal) _ = _
  rw [V_w]
  refine Eq.trans (congrArg _ ?_) (transpose_ix2_apply (wArr m c) _ k O)
  funext a; apply Fin.ext
  match a with
  | ⟨0, _⟩ => show win0_1.index t (0 : Fin 2) * 7 + 1 * k.val = k.val; omega
  | ⟨1, _⟩ => show win0_1.index t (1 : Fin 2) * 1024 + 1 * o.val = O.val; omega

/-- The index window's block at point `t`, likewise. -/
theorem iblk_apply (c : Dev nD) (t : Fin cfg0.N) (k : Fin 7) (o : Fin 1024) (O : Fin 40960) (hO : O.val = t.val * 1024 + o.val) :
    (iblk m c 2 t : Vec Ideal S7x1024 .i32) (ix2 k o) = iArr m c (ix2 O k) := by
  obtain ⟨-, -, -, -, e0, e1, -⟩ := idx_facts t
  unfold iblk
  rw [View.read_apply]
  show (V m c main_v2 : S7x40960.Idx → BitVec 32) _ = _
  rw [V_i]
  refine Eq.trans (congrArg _ ?_) (transpose_ix2_apply (iArr m c) _ k O)
  funext a; apply Fin.ext
  match a with
  | ⟨0, _⟩ => show win0_2.index t (0 : Fin 2) * 7 + 1 * k.val = k.val; omega
  | ⟨1, _⟩ => show win0_2.index t (1 : Fin 2) * 1024 + 1 * o.val = O.val; omega

/-! ## One point's block, entry by entry -/

/-- The body's product of an input block with the selector of two tap blocks, at entry `(b, o)`. -/
theorem point_apply (X : Vec Ideal S1024x1024 .bf16) (W : Vec Ideal S7x1024 .f32) (I : Vec Ideal S7x1024 .i32) (b o : Fin 1024) :
    k0_pay1 (s7 (F := Ideal) W I) X (ix2 b o)
      = ∑ i : Fin 1024, X (ix2 b i) * (0 + tap W I ⟨0, by decide⟩ i o + tap W I ⟨1, by decide⟩ i o + tap W I ⟨2, by decide⟩ i o
          + tap W I ⟨3, by decide⟩ i o + tap W I ⟨4, by decide⟩ i o + tap W I ⟨5, by decide⟩ i o + tap W I ⟨6, by decide⟩ i o) := by
  unfold k0_pay1
  simp only [shapeCast_self]
  refine (Cert.LibPlainDot.matmul_zero_plain_apply _ rfl none X _ (ix2 b o)).trans ?_
  refine Finset.sum_congr rfl fun i _ => ?_
  rw [truncf_apply, selector_apply]

/-- A tap of the blocks at point `t` is the arrays' tap of column `1024·t + o`. -/
theorem tap_blk (c : Dev nD) (t : Fin cfg0.N) (k : Fin 7) (i o : Fin 1024) (O : Fin 40960) (hO : O.val = t.val * 1024 + o.val) :
    tap (iblk m c 1 t : Vec Ideal S7x1024 .f32) (iblk m c 2 t : Vec Ideal S7x1024 .i32) k i o
      = wtap (wArr m c) (iArr m c) k i O := by
  unfold tap wtap
  rw [wblk_apply m c t k o O hO, iblk_apply m c t k o O hO]

/-- WHAT POINT `t` WRITES BACK is block `t` of the dense product of the argument arrays. -/
theorem flushed_eq (c : Dev nD) (t : Fin cfg0.N) :
    (dats m 0 c).flushed 3 t = ((cfg0.win 3).blk t).view.read (Elt Ideal) (dense (xArr m c) (wArr m c) (iArr m c)) := by
  obtain ⟨-, -, -, -, -, -, e0, e1⟩ := idx_facts t
  rw [Value.flushed3_A, Chain.out_eq]
  funext j
  obtain ⟨b, o, rfl⟩ : ∃ (b o : Fin 1024), j = ix2 b o := ⟨j 0, j 1, eq_ix2 j⟩
  have hN : cfg0.N = 40 := N_0
  have hOlt : t.val * 1024 + o.val < 40960 := by have := t.isLt; have := o.isLt; omega
  have hemb : ((cfg0.win 3).blk t).view.emb (ix2 b o) = ix2 b (⟨t.val * 1024 + o.val, hOlt⟩ : Fin 40960) := by
    funext a; apply Fin.ext
    match a with
    | ⟨0, _⟩ => show win0_3.index t (0 : Fin 2) * 1024 + 1 * b.val = b.val; omega
    | ⟨1, _⟩ => show win0_3.index t (1 : Fin 2) * 1024 + 1 * o.val = t.val * 1024 + o.val; omega
  show k0_pay1 (s7 (F := Ideal) (iblk m c 1 t : Vec Ideal S7x1024 .f32) (iblk m c 2 t : Vec Ideal S7x1024 .i32))
      (iblk m c 0 t : Vec Ideal S1024x1024 .bf16) (ix2 b o)
    = dense (xArr m c) (wArr m c) (iArr m c) (((cfg0.win 3).blk t).view.emb (ix2 b o))
  rw [hemb]
  refine (point_apply (iblk m c 0 t : Vec Ideal S1024x1024 .bf16) (iblk m c 1 t : Vec Ideal S7x1024 .f32)
    (iblk m c 2 t : Vec Ideal S7x1024 .i32) b o).trans ?_
  unfold dense
  refine Finset.sum_congr rfl fun i _ => ?_
  rw [xblk_apply m c t b i, tap_blk m c t _ i o ⟨t.val * 1024 + o.val, hOlt⟩ rfl, tap_blk m c t _ i o ⟨t.val * 1024 + o.val, hOlt⟩ rfl,
    tap_blk m c t _ i o ⟨t.val * 1024 + o.val, hOlt⟩ rfl, tap_blk m c t _ i o ⟨t.val * 1024 + o.val, hOlt⟩ rfl,
    tap_blk m c t _ i o ⟨t.val * 1024 + o.val, hOlt⟩ rfl, tap_blk m c t _ i o ⟨t.val * 1024 + o.val, hOlt⟩ rfl,
    tap_blk m c t _ i o ⟨t.val * 1024 + o.val, hOlt⟩ rfl]

/-! ## The cover -/

/-- An index of the result is in point `t`'s block iff each coordinate is in the block's range on its axis. -/
theorem mem_blk (t : Fin cfg0.N) (i : S1024x40960.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every entry of the result lies in the block of the point that owns its column. -/
theorem cover (i : S1024x40960.Idx) : ∃ t : Fin cfg0.N, (cfg0.win 3).flush t = true ∧ i ∈ ((cfg0.win 3).blk t).view.set := by
  have hN : cfg0.N = 40 := N_0
  have h0 : (i 0).val < 1024 := (i 0).isLt
  have h1 : (i 1).val < 40960 := (i 1).isLt
  refine ⟨⟨(i 1).val / 1024, by rw [hN]; omega⟩, flush0_3 _, ?_⟩
  obtain ⟨-, -, -, -, -, -, e0, e1⟩ := idx_facts ⟨(i 1).val / 1024, by rw [hN]; omega⟩
  rw [mem_blk]
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 1024 ≤ (i 1).val ∧ (i 1).val < win0_3.index _ (1 : Fin 2) * 1024 + 1024
    rw [e1]; show (i 1).val / 1024 * 1024 ≤ (i 1).val ∧ (i 1).val < (i 1).val / 1024 * 1024 + 1024; omega

/-- THE RESULT ARRAY after the run: the dense product of the argument arrays. -/
theorem final (c : Dev nD) : (dats m 0 c).arrAt 3 cfg0.N = dense (xArr m c) (wArr m c) (iArr m c) :=
  (dats m 0 c).arrAt_eq_of_cover 3 (dense (xArr m c) (wArr m c) (iArr m c)) (fun t _ => flushed_eq m c t) cover

/-- The kernel's run: it ends with the result at the dense product and the arguments unchanged. -/
theorem run : θ_run defs (onTc (τ := τ) (main (F := Ideal))) ⟨m, fun _ => 0, ρ⟩ fun r => ∀ c : Dev nD,
      r.2.mem ((c : Thread nD τ).loc main_v3) = dense (xArr m c) (wArr m c) (iArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibColGather.lean ====
/-
  A gather of whole COLUMNS of a rank-2 table, read at an index.

  What `x[:, idx]` of a table `x : [A, N]` at a vector of column numbers `idx : [M]` lowers to: a
  `stablehlo.gather` over the start indices kept as an `[M, 1]` column, with offset_dims `[0]`,
  collapsed_slice_dims `[1]`, start_index_map `[1]`, index_vector_dim `1` and slice_sizes `[A, 1]`; the result
  is `[A, M]`. Result entry `(b, o)` is the table's entry in row `b` and in the column that start index `o`
  names — the word read as a SIGNED integer and clamped into `[0, N − 1]`, as the gather clamps every start index
  so that its slice fits: a negative word names column 0, a word past the end the last column.
-/
import Idealize.ShloMosaic.Lib.ValueIdx

noncomputable section

namespace Cert.LibColGather

open Idealize.ShloMosaic Idealize.ShloMosaic.ValueIdx

variable {α : Type}

/-- The dimension numbers of the column gather for a table `[A, N]`, start indices `[M, 1]` and result `[A, M]`; their
    side conditions `wf` are decided on a program's literal shapes. -/
abbrev colDims (A N M : Nat) (wf : GatherDims.WF ⟨2, ![A, N]⟩ ⟨2, ![M, 1]⟩ ⟨2, ![A, M]⟩ [0] [1] [] [1] [] 1 ![A, 1]) :
    GatherDims ⟨2, ![A, N]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

variable {A N M w : Nat} (wf : GatherDims.WF ⟨2, ![A, N]⟩ ⟨2, ![M, 1]⟩ ⟨2, ![A, M]⟩ [0] [1] [] [1] [] 1 ![A, 1])

/-- On the table's ROW axis the gather reads the result's own row: that axis is not start-indexed, and the result's
    one offset axis runs along it. -/
theorem operandIdx_row (idx : IVec ⟨2, ![M, 1]⟩ w) (y : (⟨2, ![A, M]⟩ : Shape).Idx) :
    ((colDims A N M wf).operandIdx y idx 0).val = (y 0).val := by
  show (colDims A N M wf).start y idx 0 + (colDims A N M wf).batchCoord y 0 + (colDims A N M wf).offCoord y 0 = _
  rw [GatherDims.batchCoord_eq_zero _ _ _ List.not_mem_nil, Nat.add_zero]
  unfold GatherDims.start
  rw [dif_neg (show (0 : Fin 2) ∉ (colDims A N M wf).startIndexMap from
    (by decide : (0 : Fin 2) ∉ ([1] : List (Fin 2)))), Nat.zero_add]
  unfold GatherDims.offCoord
  rw [dif_pos (show (0 : Fin 2) ∈ (colDims A N M wf).sKept from
    (GatherDims.mem_sKept _ _).mpr ⟨(by decide : (0 : Fin 2) ∉ ([1] : List (Fin 2))), List.not_mem_nil⟩)]
  rfl

/-- On the table's COLUMN axis the gather reads the column the start index names, clamped into the table: the axis is
    collapsed (no offset) and start-indexed, and result column `o` reads start index `o`. -/
theorem operandIdx_col (idx : IVec ⟨2, ![M, 1]⟩ w) (y : (⟨2, ![A, M]⟩ : Shape).Idx) :
    ((colDims A N M wf).operandIdx y idx 1).val = min (idx (ix2 (y 1) (0 : Fin 1))).toInt.toNat (N - 1) := by
  show (colDims A N M wf).start y idx 1 + (colDims A N M wf).batchCoord y 1 + (colDims A N M wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims A N M wf).startIndexMap from List.mem_singleton.mpr rfl)]
  have hsi : (colDims A N M wf).siIdx y ⟨List.idxOf (1 : Fin 2) (colDims A N M wf).startIndexMap,
      List.idxOf_lt_length_iff.2 (List.mem_singleton.mpr rfl)⟩ = ix2 (y 1) (0 : Fin 1) := by
    funext b; refine Fin.ext ?_
    match b with
    | ⟨0, _⟩ => rfl
    | ⟨1, _⟩ => rfl
  rw [hsi]
  rfl

/-- THE COLUMN GATHER READ AT `(b, o)`: the table at row `b` and at the column start index `o` names, read signed and
    clamped into `[0, N − 1]`. -/
theorem gather_cols_apply (hN : 0 < N) (x : (⟨2, ![A, N]⟩ : Shape).Idx → α) (idx : IVec ⟨2, ![M, 1]⟩ w)
    (y : (⟨2, ![A, M]⟩ : Shape).Idx) :
    Host.gather (colDims A N M wf) x idx y
      = x (ix2 (y 0) ⟨min (idx (ix2 (y 1) (0 : Fin 1))).toInt.toNat (N - 1), by omega⟩) := by
  unfold Host.gather
  congr 1
  funext a
  refine Fin.ext ?_
  match a with
  | ⟨0, _⟩ => exact operandIdx_row wf idx y
  | ⟨1, _⟩ => exact operandIdx_col wf idx y

/-- The same at an index given by its coordinates: entry `(b, o)` reads row `b`, and the column start index `o` names. -/
theorem gather_cols_ix2 (hN : 0 < N) (x : (⟨2, ![A, N]⟩ : Shape).Idx → α) (idx : IVec ⟨2, ![M, 1]⟩ w) (b : Fin A) (o : Fin M) :
    Host.gather (colDims A N M wf) x idx (ix2 b o)
      = x (ix2 b ⟨min (idx (ix2 o (0 : Fin 1))).toInt.toNat (N - 1), by omega⟩) :=
  gather_cols_apply wf hN x idx (ix2 b o)

end Cert.LibColGather

end
-- ==== Proof.RefGathered.lean ====
/-
  The reference, read at an entry: the gathered sum.

  For each of its seven taps the reference takes column `k` of the index array, reads a negative word from the end
  of the axis (`w + 1024`), gathers those COLUMNS of the input (the gather clamps the word into the axis), multiplies
  by column `k` of the weights laid down the 1024 rows, and adds the products in tap order. At entry `(b, O)` tap `k`
  contributes `x[b, pos(idx[O,k])] · vals[O,k]`, `pos` being that reading of the word.
-/
import proofs.«412259_j73547019976715_1_alg».proof.Proof.Gen.ReferenceIdeal.Read
import proofs.«412259_j73547019976715_1_alg».proof.Proof.LibColGather
import proofs.«412259_j73547019976715_1_alg».proof.Proof.FanIn
import Idealize.ShloMosaic.Lib.ValueIdx
import Idealize.ShloMosaic.Lib.ValueLayout
import Idealize.ShloMosaic.Lib.Pipeline.Value

noncomputable section

namespace Cert.ReferenceIdeal.Gathered

open Cert.ReferenceIdeal Cert.ReferenceIdeal.Gen Cert.ReferenceIdeal.Read Idealize.ShloMosaic Idealize.ShloMosaic.ValueIdx
open Cert.FanIn (wrap pos gathered)

variable {α : Type}

/-! ## Small layout steps at an index -/

/-- A `[40960, 1]` column flattened reads, at `O`, the column's row `O`. -/
theorem flat_apply (v : S40960x1.Idx → α) (O : Fin 40960) :
    shapeCast S40960 v shapeCasts_S40960x1_S40960 (ix1 O) = v (ix2 O (0 : Fin 1)) :=
  shapeCast_apply v shapeCasts_S40960x1_S40960 (ix1 O) (ix2 O (0 : Fin 1))
    (by rw [Shape.rowMajor_val_two, Shape.rowMajor_val_one]; show O.val * 1 + 0 = O.val; omega)

/-- Column `k` of a `[40960, 7]` array, flattened, reads at `O` the array's entry `(O, k)`. -/
theorem tapcol_apply (k : Nat) (hk : k < 7) (a : S40960x7.Idx → α) (hsl : S40960x7.Slices ![0, k] S40960x1) (O : Fin 40960) :
    shapeCast S40960 (extractStridedSlice S40960x1 ![0, k] a hsl) shapeCasts_S40960x1_S40960 (ix1 O)
      = a (ix2 O (⟨k, hk⟩ : Fin 7)) := by
  rw [flat_apply, slice2_axis1_apply k a hsl O (0 : Fin 1) (⟨k, hk⟩ : Fin 7) (by simp)]

/-- A scalar word broadcast along the columns reads the word everywhere. -/
theorem scalar_apply (w : BitVec 32) (O : Fin 40960) :
    broadcastInDim S40960 ![] bcast_S_S40960 (constantI S_ 32 w) (ix1 O) = w :=
  broadcastInDim_apply _ bcast_S_S40960 (constantI S_ 32 w) (ix1 O) ix0 (fun a => a.elim0)

/-- A vector kept as a `[40960, 1]` column reads, at `(O, 0)`, the vector at `O`. -/
theorem col1_apply (v : S40960.Idx → α) (O : Fin 40960) :
    broadcastInDim S40960x1 ![0] bcast_S40960_S40960x1_0 v (ix2 O (0 : Fin 1)) = v (ix1 O) :=
  broadcastInDim_apply _ bcast_S40960_S40960x1_0 v (ix2 O (0 : Fin 1)) (ix1 O) (fun a => match a with
    | ⟨0, _⟩ => by show O.val = if (40960 : Nat) = 1 then 0 else O.val; rw [if_neg (by decide)])

/-- A vector laid as a row and then down 1024 rows reads, at `(b, O)`, the vector at `O`. -/
theorem laid_apply (v : S40960.Idx → α) (b : Fin 1024) (O : Fin 40960) :
    broadcastInDim S1024x40960 ![0, 1] bcast_S1x40960_S1024x40960_0_1 (broadcastInDim S1x40960 ![1] bcast_S40960_S1x40960_1 v) (ix2 b O)
      = v (ix1 O) := by
  rw [broadcastInDim_apply _ bcast_S1x40960_S1024x40960_0_1 _ (ix2 b O) (ix2 (0 : Fin 1) O) (fun a => match a with
      | ⟨0, _⟩ => by show 0 = if (1 : Nat) = 1 then 0 else b.val; rw [if_pos rfl]
      | ⟨1, _⟩ => by show O.val = if (40960 : Nat) = 1 then 0 else O.val; rw [if_neg (by decide)]),
    broadcastInDim_apply _ bcast_S40960_S1x40960_1 v (ix2 (0 : Fin 1) O) (ix1 O) (fun a => match a with
      | ⟨0, _⟩ => by show O.val = if (40960 : Nat) = 1 then 0 else O.val; rw [if_neg (by decide)])]

/-- A compare and an add of index vectors read entry by entry. -/
theorem cmpi_at {s : Shape} {n : Nat} (p : CmpIPredicate) (a c : IVec s n) (i : s.Idx) : cmpi p a c i = IntOp.cmpi p (a i) (c i) := rfl
theorem addi_at {s : Shape} {n : Nat} (a c : IVec s n) (i : s.Idx) : addi a c i = IntOp.addi (a i) (c i) := rfl

/-! ## One tap -/

/-- The reference's gather is the column gather of a `[1024, 1024]` table at a `[40960, 1]` column of start indices. -/
theorem gather_is_cols : gather_S1024x1024_S40960x1_S1024x40960_0_1_n_n_1_1_10241
    = Cert.LibColGather.colDims 1024 1024 40960 gather_S1024x1024_S40960x1_S1024x40960_0_1_n_n_1_1_10241_wf := rfl

/-- TAP `k` OF THE REFERENCE at entry `(b, O)`: the input at row `b` and at the column the wrapped, clamped index word
    `idx[O,k]` names, times the weight `vals[O,k]`. -/
theorem tap_term_apply (k : Nat) (hk : k < 7) (x : FVec Ideal S1024x1024 .f32) (w : FVec Ideal S40960x7 .f32) (ia : IVec S40960x7 32)
    (hsl : S40960x7.Slices ![0, k] S40960x1) (b : Fin 1024) (O : Fin 40960) :
    mulf (Host.gather gather_S1024x1024_S40960x1_S1024x40960_0_1_n_n_1_1_10241 x
          (broadcastInDim S40960x1 ![0] bcast_S40960_S40960x1_0
            (select (cmpi .slt (shapeCast S40960 (extractStridedSlice S40960x1 ![0, k] ia hsl) shapeCasts_S40960x1_S40960)
                (broadcastInDim S40960 ![] bcast_S_S40960 (constantI S_ 32 0#32)))
              (addi (shapeCast S40960 (extractStridedSlice S40960x1 ![0, k] ia hsl) shapeCasts_S40960x1_S40960)
                (broadcastInDim S40960 ![] bcast_S_S40960 (constantI S_ 32 1024#32)))
              (shapeCast S40960 (extractStridedSlice S40960x1 ![0, k] ia hsl) shapeCasts_S40960x1_S40960))))
        (broadcastInDim S1024x40960 ![0, 1] bcast_S1x40960_S1024x40960_0_1 (broadcastInDim S1x40960 ![1] bcast_S40960_S1x40960_1
          (shapeCast S40960 (extractStridedSlice S40960x1 ![0, k] w hsl) shapeCasts_S40960x1_S40960)))
        (ix2 b O)
      = x (ix2 b (pos (ia (ix2 O (⟨k, hk⟩ : Fin 7))))) * w (ix2 O (⟨k, hk⟩ : Fin 7)) := by
  have hcol : (broadcastInDim S40960x1 ![0] bcast_S40960_S40960x1_0
            (select (cmpi .slt (shapeCast S40960 (extractStridedSlice S40960x1 ![0, k] ia hsl) shapeCasts_S40960x1_S40960)
                (broadcastInDim S40960 ![] bcast_S_S40960 (constantI S_ 32 0#32)))
              (addi (shapeCast S40960 (extractStridedSlice S40960x1 ![0, k] ia hsl) shapeCasts_S40960x1_S40960)
                (broadcastInDim S40960 ![] bcast_S_S40960 (constantI S_ 32 1024#32)))
              (shapeCast S40960 (extractStridedSlice S40960x1 ![0, k] ia hsl) shapeCasts_S40960x1_S40960)))
          (ix2 O (0 : Fin 1)) = wrap (ia (ix2 O (⟨k, hk⟩ : Fin 7))) := by
    rw [col1_apply, select_apply, cmpi_at, addi_at, tapcol_apply k hk ia, scalar_apply, scalar_apply]
    rfl
  rw [mulf_apply, laid_apply, tapcol_apply k hk w, gather_is_cols,
    Cert.LibColGather.gather_cols_ix2 _ (by decide : 0 < 1024) x _ b O]
  simp only [hcol]
  rfl

variable (x : FVec Ideal S1024x1024 .f32) (w : FVec Ideal S40960x7 .f32) (ia : IVec S40960x7 32) (b : Fin 1024) (O : Fin 40960)

theorem tap0 : val_main_v13 (F := Ideal) x w ia (ix2 b O) = x (ix2 b (pos (ia (ix2 O ⟨0, by decide⟩)))) * w (ix2 O ⟨0, by decide⟩) :=
  tap_term_apply 0 (by decide) x w ia _ b O
theorem tap1 : val_main_v27 (F := Ideal) x w ia (ix2 b O) = x (ix2 b (pos (ia (ix2 O ⟨1, by decide⟩)))) * w (ix2 O ⟨1, by decide⟩) :=
  tap_term_apply 1 (by decide) x w ia _ b O
theorem tap2 : val_main_v42 (F := Ideal) x w ia (ix2 b O) = x (ix2 b (pos (ia (ix2 O ⟨2, by decide⟩)))) * w (ix2 O ⟨2, by decide⟩) :=
  tap_term_apply 2 (by decide) x w ia _ b O
theorem tap3 : val_main_v57 (F := Ideal) x w ia (ix2 b O) = x (ix2 b (pos (ia (ix2 O ⟨3, by decide⟩)))) * w (ix2 O ⟨3, by decide⟩) :=
  tap_term_apply 3 (by decide) x w ia _ b O
theorem tap4 : val_main_v72 (F := Ideal) x w ia (ix2 b O) = x (ix2 b (pos (ia (ix2 O ⟨4, by decide⟩)))) * w (ix2 O ⟨4, by decide⟩) :=
  tap_term_apply 4 (by decide) x w ia _ b O
theorem tap5 : val_main_v87 (F := Ideal) x w ia (ix2 b O) = x (ix2 b (pos (ia (ix2 O ⟨5, by decide⟩)))) * w (ix2 O ⟨5, by decide⟩) :=
  tap_term_apply 5 (by decide) x w ia _ b O
theorem tap6 : val_main_v102 (F := Ideal) x w ia (ix2 b O) = x (ix2 b (pos (ia (ix2 O ⟨6, by decide⟩)))) * w (ix2 O ⟨6, by decide⟩) :=
  tap_term_apply 6 (by decide) x w ia _ b O

/-- THE REFERENCE'S RESULT is the gathered sum of its three arguments. -/
theorem result_eq : val_main_v103 (F := Ideal) x w ia = gathered x w ia := by
  funext j
  obtain ⟨b, O, rfl⟩ : ∃ (b : Fin 1024) (O : Fin 40960), j = ix2 b O := ⟨j 0, j 1, eq_ix2 j⟩
  rw [val_main_v103_apply, val_main_v88_apply, val_main_v73_apply, val_main_v58_apply, val_main_v43_apply, val_main_v28_apply,
    tap0, tap1, tap2, tap3, tap4, tap5, tap6]
  rfl

end Cert.ReferenceIdeal.Gathered

end
-- ==== Proof.PreDecode.lean ====
/-
  What the precondition says, entry by entry.

  The precondition is one bit: the conjunction of four `all`s — every `|x|` below `+∞`, every `|vals|` below `+∞`,
  every index word `≥ 0` and every index word `< 1024` as signed integers. When the bit is set every conjunct is, and
  an `all` that is set is set at every entry. An extended real whose absolute value `max a (−a)` is below `+∞` is
  neither infinity: it is a real number.
-/
import proofs.«412259_j73547019976715_1_alg».proof.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Decode

open Cert.Pre_finite_inputs Idealize.ShloMosaic Idealize.ShloMosaic.ValueIdx
open Facts

instance : Subsingleton S_.Idx := ⟨fun a b => funext fun d => d.elim0⟩

/-- The word `0x7F800000` is `+∞`. -/
theorem inf_word : Ideal.ofBits .f32 0x7F800000#32 = (⊤ : EReal) := by simp [Ideal.ofBits, Ideal.ieee]

/-- An extended real with `|a| < +∞` is a real number. -/
theorem real_of_abs_lt (a : EReal) (h : Ideal.cmp .olt (max a (-a)) ⊤ = 1#1) : a ≠ ⊥ ∧ a ≠ ⊤ := by
  have hlt : max a (-a) < ⊤ := by
    unfold Ideal.cmp at h
    by_contra hn
    simp [hn] at h
  constructor
  · rintro rfl
    simp at hlt
  · rintro rfl
    simp at hlt

variable [Facts]

/-- THE PRECONDITION, OPENED: real entries in both float arrays, and every index word in `[0, 1024)`. -/
theorem opened (x : FVec Ideal S1024x1024 .f32) (w : FVec Ideal S40960x7 .f32) (ia : IVec S40960x7 32)
    (h : fn (F := Ideal) x w ia = fun _ => 1#1) :
    (∀ j, x j ≠ ⊥ ∧ x j ≠ ⊤) ∧ (∀ j, w j ≠ ⊥ ∧ w j ≠ ⊤) ∧ (∀ j, 0 ≤ (ia j).toInt ∧ (ia j).toInt < 1024) := by
  have h0 := congrFun h ix0
  dsimp only [fn, fn_part1] at h0
  -- the four conjuncts
  have h4 := (IntOp.andi_eq_one.mp h0)
  have h3 := (IntOp.andi_eq_one.mp h4.1)
  have h2 := (IntOp.andi_eq_one.mp h3.1)
  have hx := h2.1
  have hw := h2.2
  have hge := h3.2
  have hlt := h4.2
  refine ⟨fun j => ?_, fun j => ?_, fun j => ⟨?_, ?_⟩⟩
  · have e := Host.reduce_andi_all _ _ _ _ ix0 hx j
    refine real_of_abs_lt (x j) ?_
    rw [← inf_word]
    exact e
  · have e := Host.reduce_andi_all _ _ _ _ ix0 hw j
    refine real_of_abs_lt (w j) ?_
    rw [← inf_word]
    exact e
  · have e := Host.reduce_andi_all _ _ _ _ ix0 hge j
    have e' : IntOp.cmpi .sge (ia j) 0#32 = 1#1 := e
    have := IntOp.cmpi_sge.mp e'
    simpa using this
  · have e := Host.reduce_andi_all _ _ _ _ ix0 hlt j
    have e' : IntOp.cmpi .slt (ia j) 1024#32 = 1#1 := e
    have := IntOp.cmpi_slt.mp e'
    simpa using this

end Cert.Pre_finite_inputs.Decode

end
-- ==== Proof.lean ====
/-
  A fixed fan-in projection `y[b,o] = Σ_k vals[o,k] · x[b, idx[o,k]]` (seven taps per output column), computed two ways.

  The kernel turns the gather into a matrix product: for each tile of 1024 output columns it builds a selector
  `S[i,o] = Σ_k [i = idx[o,k]] · vals[o,k]` — zero, plus tap by tap the weight on the named row — and multiplies the whole
  input by it, `y[b,o] = Σ_i x[b,i] · S[i,o]`; the host only casts `x` to bf16 and transposes the two tap arrays, which
  changes no value over the extended reals. The reference gathers the seven tapped columns of `x`, scales each by its
  weight and adds them in order, reading a negative index from the end of the axis and clamping into it.

  Over the extended reals the two agree where every entry of `x` and `vals` is finite and every index lies in
  `[0, 1024)`: the product distributes over the taps, the two sums exchange, and `Σ_i x[b,i] · [i = idx[o,k]]` has the one
  term `x[b, idx[o,k]]` (FanIn.lean). Finiteness is what distributivity needs; the index range is the domain on which the
  reference indexes inside its array — outside it the reference wraps or clamps to some column while no row of the selector
  matches, and the two differ.

  The pieces: what one grid point leaves in its output block (ScratchChain.lean: the scratch's eight whole overwrites
  read back in order), the selector at an entry (SelectorTaps.lean, SelectorEntry.lean), the blocks assembled into the
  result array (WholeArray.lean), the reference read at an entry through its column gathers (LibColGather.lean,
  RefGathered.lean), and the precondition opened entry by entry (PreDecode.lean).
-/
import proofs.«412259_j73547019976715_1_alg».proof.Defs
import proofs.«412259_j73547019976715_1_alg».proof.Proof.Gen.Kernel
import proofs.«412259_j73547019976715_1_alg».proof.Proof.Gen.Kernel.Skeleton
import proofs.«412259_j73547019976715_1_alg».proof.Proof.Gen.Kernel.Launch
import proofs.«412259_j73547019976715_1_alg».proof.Proof.Gen.Kernel.Points
import proofs.«412259_j73547019976715_1_alg».proof.Proof.Gen.Kernel.Frame
import proofs.«412259_j73547019976715_1_alg».proof.Proof.Gen.KernelIdeal
import proofs.«412259_j73547019976715_1_alg».proof.Proof.Gen.KernelIdeal.Skeleton
import proofs.«412259_j73547019976715_1_alg».proof.Proof.Gen.KernelIdeal.Launch
import proofs.«412259_j73547019976715_1_alg».proof.Proof.Gen.KernelIdeal.Points
import proofs.«412259_j73547019976715_1_alg».proof.Proof.Gen.KernelIdeal.Frame
import proofs.«412259_j73547019976715_1_alg».proof.Proof.Gen.ReferenceIdeal
import proofs.«412259_j73547019976715_1_alg».proof.Proof.Gen.Pre_finite_inputs
import Idealize.ShloMosaic.Adequacy
import Idealize.ShloMosaic.Init
import proofs.«412259_j73547019976715_1_alg».proof.Proof.WholeArray
import proofs.«412259_j73547019976715_1_alg».proof.Proof.RefGathered
import proofs.«412259_j73547019976715_1_alg».proof.Proof.PreDecode

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the dense product of its arguments, the reference's at the gathered sum of its own;
    the arguments agree, are finite and index in range, so the two are one array. -/
theorem algebraic : Cert.algebraic_KernelIdeal_ReferenceIdeal := by
  intro m ρ m' ρ' hpre hagree
  refine ⟨fun c => Cert.FanIn.dense (Cert.KernelIdeal.Whole.xArr m c) (Cert.KernelIdeal.Whole.wArr m c) (Cert.KernelIdeal.Whole.iArr m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.ReferenceIdeal.Gathered.result_eq,
    (hagree c).1, (hagree c).2.1, (hagree c).2.2]
  obtain ⟨hx, hw, hr⟩ := Cert.Pre_finite_inputs.Decode.opened _ _ _ (hpre c)
  exact (Cert.FanIn.dense_eq_gathered _ _ _ hx hw hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
